-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x512 .f32) (main_arg1 : FVec F S512x512 .f32) (main_arg2 : FVec F S512x512 .f32) (main_arg3 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩

abbrev nBuf : Space → Nat
  | .hbm => 6
  | .vmem => 8
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1000x512, .f32⟩
  | .local _ .vmem, ⟨6, _⟩ => ⟨S1000x512, .f32⟩
  | .local _ .vmem, ⟨7, _⟩ => ⟨S512x512, .bf16⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1000x512_S1000x512_0_0 : ∀ a, (![0, 0] : Fin 2 → Nat) a + S1000x512.size a ≤ S1000x512.size a
  h_S1000x512 : 0 < S1000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  dot_S512x512_S512x512_S512x512_1_1_0_0_n_n_wf : DotDims.WF S512x512 S512x512 S512x512 [1] [1] [0] [0] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S10000x512.size a
  hwx0_4 : ∀ i : grid0.Coords, EltTy.bits .f32 = 32 ∨ (Rect.block (s := S10000x512) S1000x512.size (cc0_transform_4 i) (hinb0_4 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S10000x512, .f32⟩
  | .hbm, ⟨5, _⟩ => ⟨S512x512, .f32⟩
  | .hbm, ⟨6, _⟩ => ⟨S10000x512, .f32⟩
  | .hbm, ⟨7, _⟩ => ⟨S1x512, .f32⟩
  | .hbm, ⟨8, _⟩ => ⟨S10000x512, .f32⟩
  | .hbm, ⟨9, _⟩ => ⟨S10000x512, .f32⟩
  | .hbm, ⟨10, _⟩ => ⟨S_, .f32⟩
  | .hbm, ⟨11, _⟩ => ⟨S10000x512, .f32⟩
  | .hbm, ⟨12, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.KernelCases.lean ====
/-
  What one run of the kernel body leaves behind, in each of its two control cases.

  The body runs at ten grid points. At the first it stores the product of the two square operands into a scratch
  that persists between points, then (at every point) multiplies the current row block by the scratch, adds the bias row
  and rectifies into the output block. So:
    * the first point leaves the first payload `k0_pay1 s w` in the scratch;
    * its output block is the second payload of the row block, of that just-stored scratch and of the bias row;
    * a later point leaves the scratch alone, and its output block is the second payload of its row block, of the
      scratch as the point before left it, and of the bias row.
  Each is the single covering store of the case read back, its loads reading whole buffers.
-/
import proofs.«137184_g50663434224280_cont_8to1_c_477_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-buffer access. -/
theorem hz : (![0, 0] : Fin 2 → Nat) = fun _ => 0 := funext fun a => by fin_cases a <;> rfl

/-- At the grid's first point the body stores the product of the two square operands into the scratch: what the
    scratch then holds is that one covering store's payload, read at whole buffers. -/
theorem scratch_A (c : Dev nD) (i : grid0.Coords) (a1 : Memref sig .tc .vmem S1000x512 .f32) (h1 : a1.IsWhole)
    (a2 : Memref sig .tc .vmem S512x512 .f32) (h2 : a2.IsWhole) (a3 : Memref sig .tc .vmem S512x512 .f32) (h3 : a3.IsWhole)
    (a4 : Memref sig .tc .vmem S1x512 .f32) (h4 : a4.IsWhole) (a5 : Memref sig .tc .vmem S1000x512 .f32) (h5 : a5.IsWhole)
    (a6 : Memref sig .tc .vmem S512x512 .bf16) (h6 : a6.IsWhole) (hc : cond0_0 i)
    (x0 : Vec F S1000x512 .f32) (x1 x2 : Vec F S512x512 .f32) (x3 : Vec F S1x512 .f32) :
    sout0_A_0 c i a1 h1 a2 h2 a3 h3 a4 h4 a5 h5 a6 h6 hc x0 x1 x2 x3 = k0_pay1 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h2.read_unread, h3.read_unread, View.ld_unit_zero (S := S512x512) hz]

/-- At the first point the output block is the second payload of the row block, of the scratch JUST STORED (read back
    through the store that covers it) and of the bias row. -/
theorem out_A (c : Dev nD) (i : grid0.Coords) (a1 : Memref sig .tc .vmem S1000x512 .f32) (h1 : a1.IsWhole)
    (a2 : Memref sig .tc .vmem S512x512 .f32) (h2 : a2.IsWhole) (a3 : Memref sig .tc .vmem S512x512 .f32) (h3 : a3.IsWhole)
    (a4 : Memref sig .tc .vmem S1x512 .f32) (h4 : a4.IsWhole) (a5 : Memref sig .tc .vmem S1000x512 .f32) (h5 : a5.IsWhole)
    (a6 : Memref sig .tc .vmem S512x512 .bf16) (h6 : a6.IsWhole) (hc : cond0_0 i)
    (x0 : Vec F S1000x512 .f32) (x1 x2 : Vec F S512x512 .f32) (x3 : Vec F S1x512 .f32) :
    out0_A_4 c i a1 h1 a2 h2 a3 h3 a4 h4 a5 h5 a6 h6 hc x0 x1 x2 x3 = k0_pay2 x0 (k0_pay1 x1 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero (S := S1000x512) hz]
  simp only [View.readAt_eq_ld, h1.read_unread, h2.read_unread, h3.read_unread, h4.read_unread,
    View.ld_unit_zero (S := S1000x512) hz, View.ld_unit_zero (S := S512x512) hz, View.ld_unit_zero (S := S1x512) hz,
    View.readCov_unit_zero (S := S512x512) _ hz]

/-- At every later point the output block is the second payload of the row block, of the scratch AS THE POINT BEFORE
    LEFT IT, and of the bias row. -/
theorem out_B (c : Dev nD) (i : grid0.Coords) (a1 : Memref sig .tc .vmem S1000x512 .f32) (h1 : a1.IsWhole)
    (a2 : Memref sig .tc .vmem S512x512 .f32) (h2 : a2.IsWhole) (a3 : Memref sig .tc .vmem S512x512 .f32) (h3 : a3.IsWhole)
    (a4 : Memref sig .tc .vmem S1x512 .f32) (h4 : a4.IsWhole) (a5 : Memref sig .tc .vmem S1000x512 .f32) (h5 : a5.IsWhole)
    (a6 : Memref sig .tc .vmem S512x512 .bf16) (h6 : a6.IsWhole) (hc : ¬cond0_0 i)
    (x0 : Vec F S1000x512 .f32) (x1 x2 : Vec F S512x512 .f32) (x3 : Vec F S1x512 .f32) (xs : Vec F S512x512 .bf16) :
    out0_B_4 c i a1 h1 a2 h2 a3 h3 a4 h4 a5 h5 a6 h6 hc x0 x1 x2 x3 xs = k0_pay2 x0 xs x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero (S := S1000x512) hz]
  simp only [View.readAt_eq_ld, h1.read_unread, h4.read_unread, h6.read_unread,
    View.ld_unit_zero (S := S1000x512) hz, View.ld_unit_zero (S := S512x512) hz, View.ld_unit_zero (S := S1x512) hz]

end Cert.KernelIdeal.Pieces
end
-- ==== Proof.KernelPayload.lean ====
/-
  The two payloads of the kernel body, read entry by entry on the extended reals.

  The first payload is the product of the two square operands contracted over THEIR SECOND axes, `c k l = ∑ j, s k j · w l j`
  (that is `s · wᵀ`); the change of float format and the cast to the same shape do nothing here. The second payload is
  `max (∑ k, x r k · c k l + b 0 l) 0` of a row block `x`, the stored product `c` and the bias row `b`: a product into a zero
  accumulator, the bias broadcast down the rows, the rectifier.
-/
import proofs.«137184_g50663434224280_cont_8to1_c_477_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ### The square product: both operands contracted over their second axis -/

theorem sq_lhs_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem sq_lhs_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem sq_rhs_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem sq_rhs_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Entry `(k, l)` of the first payload: row `k` of `s` against row `l` of `w`. -/
theorem pay1_apply (s w : FVec Ideal S512x512 .f32) (k l : Fin 512) :
    k0_pay1 (F := Ideal) s w (ix2 k l) = ∑ j : Fin 512, s (ix2 k j) * w (ix2 l j) := by
  unfold k0_pay1
  simp only [shapeCast_self]
  show FloatOps.matmul (F := Ideal) dot_S512x512_S512x512_S512x512_1_1_0_0_n_n none s w (constant (F := Ideal) S512x512 .f32 0x00000000#32) (ix2 k l) = _
  rw [Ideal.matmul_constant_zero_apply, ← Equiv.sum_comp (contrEquiv1 dot_S512x512_S512x512_S512x512_1_1_0_0_n_n 512 rfl rfl).symm]
  refine Finset.sum_congr rfl fun j _ => ?_
  have hj := contrEquiv1_symm_val dot_S512x512_S512x512_S512x512_1_1_0_0_n_n 512 rfl rfl j
  have el : dot_S512x512_S512x512_S512x512_1_1_0_0_n_n.lhsIdx (ix2 k l) ((contrEquiv1 dot_S512x512_S512x512_S512x512_1_1_0_0_n_n 512 rfl rfl).symm j) = ix2 k j := funext fun a => Fin.ext (by
    match a with
    | ⟨0, _⟩ => exact sq_lhs_0 _ _
    | ⟨1, _⟩ => exact (sq_lhs_1 _ _).trans hj)
  have er : dot_S512x512_S512x512_S512x512_1_1_0_0_n_n.rhsIdx (ix2 k l) ((contrEquiv1 dot_S512x512_S512x512_S512x512_1_1_0_0_n_n 512 rfl rfl).symm j) = ix2 l j := funext fun a => Fin.ext (by
    match a with
    | ⟨0, _⟩ => exact sq_rhs_0 _ _
    | ⟨1, _⟩ => exact (sq_rhs_1 _ _).trans hj)
  rw [el, er]

/-! ### The row block against the stored product: an ordinary matrix product -/

theorem rb_lhs_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem rb_lhs_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rb_rhs_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rb_rhs_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- Entry `(r, l)` of the product of a row block with a square matrix into the zero accumulator. -/
theorem rowProduct_apply (x : FVec Ideal S1000x512 .bf16) (cm : FVec Ideal S512x512 .bf16) (r : Fin 1000) (l : Fin 512) :
    FloatOps.matmul (F := Ideal) dot_S1000x512_S512x512_S1000x512_1_0_0_1_n_n none x cm (constant (F := Ideal) S1000x512 .f32 0x00000000#32) (ix2 r l) = ∑ k : Fin 512, x (ix2 r k) * cm (ix2 k l) := by
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 r l) ((contrEquiv1 dot_S1000x512_S512x512_S1000x512_1_0_0_1_n_n 512 rfl rfl).symm k) = ix2 r k := funext fun a => Fin.ext (by
    match a with
    | ⟨0, _⟩ => exact rb_lhs_0 _ _
    | ⟨1, _⟩ => exact (rb_lhs_1 _ _).trans hk)
  have er : dot_S1000x512_S512x512_S1000x512_1_0_0_1_n_n.rhsIdx (ix2 r l) ((contrEquiv1 dot_S1000x512_S512x512_S1000x512_1_0_0_1_n_n 512 rfl rfl).symm k) = ix2 k l := funext fun a => Fin.ext (by
    match a with
    | ⟨0, _⟩ => exact (rb_rhs_0 _ _).trans hk
    | ⟨1, _⟩ => exact rb_rhs_1 _ _)
  rw [el, er]

/-- The bias row broadcast down the 1000 rows reads its entry in column `l`. -/
theorem biasRows_apply (b : FVec Ideal S1x512 .f32) (r : Fin 1000) (l : Fin 512) :
    broadcastTo S1000x512 b broadcasts_S1x512_S1000x512 (ix2 r l) = b (ix2 (0 : Fin 1) l) :=
  broadcastTo_apply b broadcasts_S1x512_S1000x512 (ix2 r l) (ix2 (0 : Fin 1) l) (fun a => by
    match a with
    | ⟨0, _⟩ => show 0 = if (1 : Nat) = 1 then 0 else r.val; rw [if_pos rfl]
    | ⟨1, _⟩ => show l.val = if (512 : Nat) = 1 then 0 else l.val; rw [if_neg (by decide)])

/-- Entry `(r, l)` of the second payload. -/
theorem pay2_apply (x : FVec Ideal S1000x512 .f32) (cm : FVec Ideal S512x512 .bf16) (b : FVec Ideal S1x512 .f32) (r : Fin 1000) (l : Fin 512) :
    k0_pay2 (F := Ideal) x cm b (ix2 r l)
      = max ((∑ k : Fin 512, x (ix2 r k) * cm (ix2 k l)) + b (ix2 (0 : Fin 1) l)) (Ideal.ofBits .f32 0x00000000#32) := by
  unfold k0_pay2
  simp only [shapeCast_self]
  show max (FloatOps.matmul (F := Ideal) dot_S1000x512_S512x512_S1000x512_1_0_0_1_n_n none (truncf (F := Ideal) .bf16 x bitsLt_bf16_f32) cm (constant (F := Ideal) S1000x512 .f32 0x00000000#32) (ix2 r l)
      + broadcastTo S1000x512 b broadcasts_S1x512_S1000x512 (ix2 r l)) (Ideal.ofBits .f32 0x00000000#32) = _
  rw [rowProduct_apply, biasRows_apply]
  rfl

end Cert.KernelIdeal.Payload

end
-- ==== Proof.SumLaw.lean ====
/-
  Reassociating a product of three real matrices, read on the extended reals.

  For a row `x` (indexed by `K`), a matrix `s` (`K × J`) and a row `w` (indexed by `J`) whose entries are all
  real numbers,
      ∑ k, x k * (∑ j, s k j * w j) = ∑ j, (∑ k, x k * s k j) * w j.
  Over ℝ this is distributivity and a swap of the two finite sums. On the extended reals distributivity fails at
  the infinities, which is why every entry is assumed real: both sides are then the coercion of one real number.
-/
import Idealize.ShloMosaic.PureOps.Ideal

open scoped BigOperators

namespace Cert.SumLaw

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An extended real whose absolute value `max x (-x)` lies below `+∞` is a real number. -/
theorem real_of_abs_lt_top (x : EReal) (h : max x (-x) < ⊤) : ∃ r : ℝ, x = r := by
  induction x using EReal.rec with
  | bot => simp at h
  | coe r => exact ⟨r, rfl⟩
  | top => simp at h

/-- `x · (s · w) = (x · s) · w` entrywise, for real entries: both sides are the real double sum
    `∑ k j, x k * s k j * w j`. -/
theorem reassoc {K J : Type} [Fintype K] [Fintype J] (x : K → EReal) (s : K → J → EReal) (w : J → EReal)
    (hx : ∀ k, ∃ r : ℝ, x k = r) (hs : ∀ k j, ∃ r : ℝ, s k j = r) (hw : ∀ j, ∃ r : ℝ, w j = r) :
    ∑ k, x k * ∑ j, s k j * w j = ∑ j, (∑ k, x k * s k j) * w j := by
  choose xr hxr using hx
  choose sr hsr using hs
  choose wr hwr using hw
  obtain rfl : x = fun k => ((xr k : ℝ) : EReal) := funext hxr
  obtain rfl : s = fun k j => ((sr k j : ℝ) : EReal) := funext fun k => funext (hsr k)
  obtain rfl : w = fun j => ((wr j : ℝ) : EReal) := funext hwr
  simp only [← EReal.coe_mul, ← coe_sum]
  congr 1
  simp only [Finset.mul_sum, Finset.sum_mul]
  rw [Finset.sum_comm]
  exact Finset.sum_congr rfl fun j _ => Finset.sum_congr rfl fun k _ => by ring

end Cert.SumLaw
-- ==== Proof.Spec.lean ====
/-
  The two arrangements of `relu (x · s · wᵀ + b)` over the extended reals, and their equality on real inputs.

  `x` is 10000 × 512, `s` and `w` are 512 × 512, `b` has 512 entries. Entry `(r, l)` of the result is
      max (∑ k j, x r k · s k j · w l j + b l) 0,
  the double sum taken either as  ∑ k, x r k · (∑ j, s k j · w l j)  (the product `s · wᵀ` formed first: `kernelEntry`)
  or as  ∑ j, (∑ k, x r k · s k j) · w l j  (the product `x · s` formed first: `refEntry`). The two agree when every
  entry of `x`, `s` and `w` is a real number (`SumLaw.reassoc`); the bias enters both the same way and is unconstrained.
-/
import Idealize.ShloMosaic.Lib.ValueIdx
import proofs.«137184_g50663434224280_cont_8to1_c_477_4_alg».proof.Proof.SumLaw

noncomputable section

open scoped BigOperators
open Idealize.ShloMosaic Idealize.ShloMosaic.ValueIdx

namespace Cert.Spec

abbrev Sx : Shape := ⟨2, ![10000, 512]⟩
abbrev Sq : Shape := ⟨2, ![512, 512]⟩
abbrev Sb : Shape := ⟨1, ![512]⟩

/-- The zero the rectifier compares with: the word `+0.0`, which denotes the real `0`. -/
abbrev zeroWord : EReal := Ideal.ofBits .f32 0x00000000#32

/-- Entry `(r, l)` with `s · wᵀ` formed first. -/
def kernelEntry (x : Sx.Idx → EReal) (s w : Sq.Idx → EReal) (b : Sb.Idx → EReal) (r : Fin 10000) (l : Fin 512) : EReal :=
  max ((∑ k : Fin 512, x (ix2 r k) * ∑ j : Fin 512, s (ix2 k j) * w (ix2 l j)) + b (ix1 l)) zeroWord

/-- Entry `(r, l)` with `x · s` formed first. -/
def refEntry (x : Sx.Idx → EReal) (s w : Sq.Idx → EReal) (b : Sb.Idx → EReal) (r : Fin 10000) (l : Fin 512) : EReal :=
  max ((∑ j : Fin 512, (∑ k : Fin 512, x (ix2 r k) * s (ix2 k j)) * w (ix2 l j)) + b (ix1 l)) zeroWord

/-- The whole result, `s · wᵀ` first. -/
def kernelForm (x : Sx.Idx → EReal) (s w : Sq.Idx → EReal) (b : Sb.Idx → EReal) : Sx.Idx → EReal :=
  fun i => kernelEntry x s w b (i 0) (i 1)

/-- The whole result, `x · s` first. -/
def refForm (x : Sx.Idx → EReal) (s w : Sq.Idx → EReal) (b : Sb.Idx → EReal) : Sx.Idx → EReal :=
  fun i => refEntry x s w b (i 0) (i 1)

/-- On real inputs the two arrangements are one function. -/
theorem kernelForm_eq_refForm (x : Sx.Idx → EReal) (s w : Sq.Idx → EReal) (b : Sb.Idx → EReal)
    (hx : ∀ i, ∃ r : ℝ, x i = r) (hs : ∀ i, ∃ r : ℝ, s i = r) (hw : ∀ i, ∃ r : ℝ, w i = r) :
    kernelForm x s w b = refForm x s w b := by
  funext i
  unfold kernelForm refForm kernelEntry refEntry
  rw [SumLaw.reassoc (fun k => x (ix2 (i 0) k)) (fun k j => s (ix2 k j)) (fun j => w (ix2 (i 1) j))
    (fun _ => hx _) (fun _ _ => hs _) (fun _ => hw _)]

end Cert.Spec

end
-- ==== Proof.KernelValue.lean ====
/-
  The kernel's result array, whole: entry `(r, l)` is `max (∑ k, x r k · (∑ j, s k j · w l j) + b l) 0`.

  The grid has ten points; point `t` reads rows `1000 t … 1000 t + 999` of `x`, the whole of `s` and `w`, the bias as
  a `1 × 512` row (a host cast of the 512-vector before the region), and writes back rows `1000 t … 1000 t + 999` of
  the result. The scratch is written at point 0 only, with the product of `s` and `w` over their second axes; by
  induction on the point it holds that product after EVERY point (a later point leaves it as the point before did).
  So every point's output block is the second payload of its row block, of that one product and of the bias row; read
  entry by entry this is block `t` of `Spec.kernelForm`. The ten blocks tile the 10000 rows (row `r` lies in block
  `r / 1000`), so the array after the run IS `Spec.kernelForm` of the four argument arrays.
-/
import proofs.«137184_g50663434224280_cont_8to1_c_477_4_alg».proof.Defs
import proofs.«137184_g50663434224280_cont_8to1_c_477_4_alg».proof.Proof.Gen.KernelIdeal.Value
import proofs.«137184_g50663434224280_cont_8to1_c_477_4_alg».proof.Proof.KernelCases
import proofs.«137184_g50663434224280_cont_8to1_c_477_4_alg».proof.Proof.KernelPayload
import proofs.«137184_g50663434224280_cont_8to1_c_477_4_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

section AnyInstance

variable {F : FTy → Type} [FloatOps F]
variable (m : (ℓ : Loc nD τ sig) → Buf (Elt F) ℓ)

/-- The printed index maps over the ten points: the row-block windows (input 0, output 4) sit at block `(t, 0)`, the
    three whole-array windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The arrays as the region finds them, and each window's block at a point, under their literal types. -/
abbrev xarr (c : Dev nD) : Vec F S10000x512 .f32 := V m c main_arg0
abbrev sarr (c : Dev nD) : Vec F S512x512 .f32 := V m c main_arg1
abbrev warr (c : Dev nD) : Vec F S512x512 .f32 := V m c main_arg2
abbrev barr (c : Dev nD) : Vec F S1x512 .f32 := V m c main_call0_v0
abbrev xblk (c : Dev nD) (t : Fin cfg0.N) : Vec F S1000x512 .f32 := iblk m c 0 t
abbrev sblk (c : Dev nD) (t : Fin cfg0.N) : Vec F S512x512 .f32 := iblk m c 1 t
abbrev wblk (c : Dev nD) (t : Fin cfg0.N) : Vec F S512x512 .f32 := iblk m c 2 t
abbrev bblk (c : Dev nD) (t : Fin cfg0.N) : Vec F S1x512 .f32 := iblk m c 3 t

/-- Window 1's block is the whole of `s`, at every point. -/
theorem sblk_eq (c : Dev nD) (t : Fin cfg0.N) : sblk m c t = sarr m c := by
  obtain ⟨-, -, e0, e1, -⟩ := idx_facts t
  funext y
  show ((cfg0.win 1).blk t).view.read (Elt F) (V m c (Pipeline.arrRef spec0 1)) y = V m c main_arg1 y
  rw [View.read_apply]
  show V m c main_arg1 (((cfg0.win 1).blk t).view.emb y) = V m c main_arg1 y
  congr 1
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- Window 2's block is the whole of `w`, at every point. -/
theorem wblk_eq (c : Dev nD) (t : Fin cfg0.N) : wblk m c t = warr m c := by
  obtain ⟨-, -, -, -, e0, e1, -⟩ := idx_facts t
  funext y
  show ((cfg0.win 2).blk t).view.read (Elt F) (V m c (Pipeline.arrRef spec0 2)) y = V m c main_arg2 y
  rw [View.read_apply]
  show V m c main_arg2 (((cfg0.win 2).blk t).view.emb y) = V m c main_arg2 y
  congr 1
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- Window 3's block is the whole bias row, at every point. -/
theorem bblk_eq (c : Dev nD) (t : Fin cfg0.N) : bblk m c t = barr m c := by
  obtain ⟨-, -, -, -, -, -, e0, e1, -⟩ := idx_facts t
  funext y
  show ((cfg0.win 3).blk t).view.read (Elt F) (V m c (Pipeline.arrRef spec0 3)) y = V m c main_call0_v0 y
  rw [View.read_apply]
  show V m c main_call0_v0 (((cfg0.win 3).blk t).view.emb y) = V m c main_call0_v0 y
  congr 1
  funext a; apply Fin.ext
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- Window 0's block at point `t` is rows `1000 t …` of `x`. -/
theorem xblk_apply (c : Dev nD) (t : Fin cfg0.N) (r : Fin 1000) (k : Fin 512) (R : Fin 10000) (hR : R.val = 1000 * t.val + r.val) :
    xblk m c t (ix2 r k) = xarr m c (ix2 R k) := by
  obtain ⟨e0, e1, -⟩ := idx_facts t
  show ((cfg0.win 0).blk t).view.read (Elt F) (V m c (Pipeline.arrRef spec0 0)) (ix2 r k) = V m c main_arg0 (ix2 R k)
  rw [View.read_apply]
  show V m c main_arg0 (((cfg0.win 0).blk t).view.emb (ix2 r k)) = V m c main_arg0 (ix2 R k)
  congr 1
  funext a; apply Fin.ext
  match a with
  | ⟨0, _⟩ => show win0_0.index t (0 : Fin 2) * 1000 + 1 * r.val = R.val; omega
  | ⟨1, _⟩ => show win0_0.index t (1 : Fin 2) * 512 + 1 * k.val = k.val; omega

/-- The product the scratch holds: the first payload of the whole `s` and `w`. -/
abbrev cmat (c : Dev nD) : Vec F S512x512 .bf16 := k0_pay1 (sarr m c) (warr m c)

/-- THE CARRIED SCRATCH holds that product after every point: stored at point 0, left alone afterwards. -/
theorem scratch_eq (c : Dev nD) : ∀ (n : ℕ) (hn : n < cfg0.N), (outsAt0 m c n hn).2 = cmat m c
  | 0, h => by
    rw [outsAt0_A m c ⟨0, h⟩ rfl]
    dsimp only
    refine (Pieces.scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) scM0_0 (Memref.isWhole_whole _) ((hcond0_0 ⟨0, h⟩).mpr rfl)
      (xblk m c ⟨0, h⟩) (sblk m c ⟨0, h⟩) (wblk m c ⟨0, h⟩) (bblk m c ⟨0, h⟩)).trans ?_
    rw [sblk_eq, wblk_eq]
  | n + 1, h => by
    have hN : cfg0.N = 10 := N_0
    have hB : ¬(⟨n + 1, h⟩ : Fin cfg0.N).val % 10 = 0 := by dsimp only; omega
    rw [outsAt0_B m c ⟨n + 1, h⟩ hB]
    dsimp only
    unfold sout0_B_0
    exact scratch_eq c n (Nat.lt_of_succ_lt h)

/-- EVERY POINT'S OUTPUT BLOCK: the second payload of the point's row block, the one product, and the bias row. -/
theorem out_eq (c : Dev nD) (t : Fin cfg0.N) :
    (outsAt0 m c t.val t.isLt).1 = k0_pay2 (xblk m c t) (cmat m c) (barr m c) := by
  by_cases h0 : t.val % 10 = 0
  · rw [outsAt0_A m c t h0]
    dsimp only
    refine (Pieces.out_A c (grid0.coords t) (ms0_0 t) (hs0_0 t) (ms0_1 t) (hs0_1 t) (ms0_2 t) (hs0_2 t)
      (ms0_3 t) (hs0_3 t) (ms0_4 t) (hs0_4 t) scM0_0 (Memref.isWhole_whole _) ((hcond0_0 t).mpr h0)
      (xblk m c t) (sblk m c t) (wblk m c t) (bblk m c t)).trans ?_
    rw [sblk_eq, wblk_eq, bblk_eq]
  · rw [outsAt0_B m c t h0]
    dsimp only
    refine (Pieces.out_B c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      (xblk m c t) (sblk m c t) (wblk m c t) (bblk m c t) (outsAt0 m c (t.val - 1) (Nat.lt_of_le_of_lt (Nat.sub_le _ _) t.isLt)).2).trans ?_
    rw [scratch_eq, bblk_eq]

/-- The bias row is the host's cast of the 512-vector to `1 × 512`. -/
theorem barr_eq (c : Dev nD) :
    barr m c = shapeCast S1x512 (m ((c : Thread nD τ).loc main_arg3)) shapeCasts_S512_S1x512 := by
  show (V m c main_call0_v0 : S1x512.Idx → Elt F .f32) = _
  dsimp only [V, hostOps0]
  after_results
  rfl

end AnyInstance

section AtIdeal

variable (m : (ℓ : Loc nD τ sig) → Buf (Elt Ideal) ℓ) (ρ : Dev nD → PrngReg)

/-- The four argument arrays as launched, as functions into the extended reals. -/
abbrev a0 (c : Dev nD) : S10000x512.Idx → EReal := m ((c : Thread nD τ).loc main_arg0)
abbrev a1 (c : Dev nD) : S512x512.Idx → EReal := m ((c : Thread nD τ).loc main_arg1)
abbrev a2 (c : Dev nD) : S512x512.Idx → EReal := m ((c : Thread nD τ).loc main_arg2)
abbrev a3 (c : Dev nD) : S512.Idx → EReal := m ((c : Thread nD τ).loc main_arg3)

/-- The whole result as a function of the four argument arrays: the arrangement with `s · wᵀ` formed first. -/
abbrev G (c : Dev nD) : S10000x512.Idx → EReal :=
  Cert.Spec.kernelForm (a0 m c) (a1 m c) (a2 m c) (a3 m c)

/-- Entry `(r, l)` of point `t`'s output block is entry `(1000 t + r, l)` of `G`. -/
theorem block_entry (c : Dev nD) (t : Fin cfg0.N) (r : Fin 1000) (l : Fin 512) (R : Fin 10000) (hR : R.val = 1000 * t.val + r.val) :
    k0_pay2 (F := Ideal) (xblk m c t) (cmat m c) (barr m c) (ix2 r l) = G m c (ix2 R l) := by
  have hx : ∀ k : Fin 512, xblk m c t (ix2 r k) = a0 m c (ix2 R k) := fun k =>
    (xblk_apply m c t r k R hR).trans (congrFun (V_main_arg0 m c) _)
  have hs : sarr m c = a1 m c := V_main_arg1 m c
  have hw : warr m c = a2 m c := V_main_arg2 m c
  have hc : ∀ k : Fin 512, cmat m c (ix2 k l) = ∑ j : Fin 512, a1 m c (ix2 k j) * a2 m c (ix2 l j) := fun k => by
    show k0_pay1 (F := Ideal) (sarr m c) (warr m c) (ix2 k l) = _
    rw [hs, hw]
    exact Payload.pay1_apply (a1 m c) (a2 m c) k l
  have hb : barr m c (ix2 (0 : Fin 1) l) = a3 m c (ix1 l) := by
    rw [barr_eq]
    exact shapeCast_a_1a_apply (a3 m c) _ 0 l
  rw [Payload.pay2_apply]
  simp only [hx, hc, hb]
  rfl

/-- WHAT POINT `t` WRITES BACK is block `t` of `G`. -/
theorem flushed_eq (c : Dev nD) (t : Fin cfg0.N) :
    (dats m 0 c).flushed 4 t = ((cfg0.win 4).blk t).view.read (Elt Ideal) (G m c) := by
  rw [Cert.KernelIdeal.Value.flushed4, out_eq]
  obtain ⟨-, -, -, -, -, -, -, -, e0, e1⟩ := idx_facts t
  have hN : t.val < 10 := lt_of_lt_of_eq t.isLt (show cfg0.N = 10 from N_0)
  funext y
  have hy0 : (y 0).val < 1000 := (y 0).isLt
  have hy1 : (y 1).val < 512 := (y 1).isLt
  show k0_pay2 (F := Ideal) (xblk m c t) (cmat m c) (barr m c) y = G m c (((cfg0.win 4).blk t).view.emb y)
  have ey : y = ix2 (⟨(y 0).val, hy0⟩ : Fin 1000) (⟨(y 1).val, hy1⟩ : Fin 512) :=
    funext fun a => by match a with | ⟨0, _⟩ => rfl | ⟨1, _⟩ => rfl
  have ee : ((cfg0.win 4).blk t).view.emb y = ix2 (⟨1000 * t.val + (y 0).val, by omega⟩ : Fin 10000) (⟨(y 1).val, hy1⟩ : Fin 512) := by
    funext a; apply Fin.ext
    match a with
    | ⟨0, _⟩ => show win0_4.index t (0 : Fin 2) * 1000 + 1 * (y 0).val = 1000 * t.val + (y 0).val; omega
    | ⟨1, _⟩ => show win0_4.index t (1 : Fin 2) * 512 + 1 * (y 1).val = (y 1).val; omega
  rw [ee]
  refine (congrArg (k0_pay2 (F := Ideal) (xblk m c t) (cmat m c) (barr m c)) ey).trans ?_
  exact block_entry m c t _ _ _ rfl

/-- An index of the result array lies in point `t`'s block iff its row is one of the thousand rows from `1000 t`. -/
theorem mem_blk (t : Fin cfg0.N) (i : S10000x512.Idx) :
    i ∈ ((cfg0.win 4).blk t).view.set ↔ ∀ a : Fin 2, win0_4.index t a * S1000x512.size a ≤ (i a).val ∧ (i a).val < win0_4.index t a * S1000x512.size a + S1000x512.size a := by
  show i ∈ ((View.whole main_v0).slice (win0_4.rect t)).set ↔ _
  rw [View.set_slice_whole, Rect.mem_set_unit]
  exact Iff.rfl

/-- THE ARRAY after the run is `G`: row `r` lies in the block of point `r / 1000`, and every point writes back. -/
theorem final (c : Dev nD) : (dats m 0 c).arrAt 4 cfg0.N = G m c :=
  (dats m 0 c).arrAt_eq_of_cover 4 (G m c) (fun t _ => flushed_eq m c t) (fun i => by
    have hi0 : (i 0).val < 10000 := (i 0).isLt
    have hi1 : (i 1).val < 512 := (i 1).isLt
    have hN : cfg0.N = 10 := N_0
    refine ⟨⟨(i 0).val / 1000, by omega⟩, flush0_4 _, ?_⟩
    obtain ⟨-, -, -, -, -, -, -, -, e0, e1⟩ := idx_facts (⟨(i 0).val / 1000, by omega⟩ : Fin cfg0.N)
    rw [mem_blk]
    intro a
    match a with
    | ⟨0, _⟩ =>
      show win0_4.index ⟨(i 0).val / 1000, _⟩ (0 : Fin 2) * 1000 ≤ (i 0).val ∧ (i 0).val < win0_4.index ⟨(i 0).val / 1000, _⟩ (0 : Fin 2) * 1000 + 1000
      rw [e0]; dsimp only; omega
    | ⟨1, _⟩ =>
      show win0_4.index ⟨(i 0).val / 1000, _⟩ (1 : Fin 2) * 512 ≤ (i 1).val ∧ (i 1).val < win0_4.index ⟨(i 0).val / 1000, _⟩ (1 : Fin 2) * 512 + 512
      rw [e1]; omega)

/-- THE RUN, READ: every weakly fair execution ends with the result array at `G` and the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end AtIdeal

end Cert.KernelIdeal.Whole

end
-- ==== Proof.RefValue.lean ====
/-
  The reference's result, entry by entry, is the arrangement with `x · s` formed first.

  The reference forms `x · s`, transposes `w`, multiplies, adds the bias broadcast over the rows and rectifies. Reading
  each stage at an index: entry `(r, l)` is `max (∑ j, (∑ k, x r k · s k j) · w l j + b l) 0` — the transposed `w` read at
  `(j, l)` is `w` at `(l, j)`, and the two broadcasts of the bias read `b l`. No algebra is needed: the sums stand as the
  stages spell them.
-/
import proofs.«137184_g50663434224280_cont_8to1_c_477_4_alg».proof.Defs
import proofs.«137184_g50663434224280_cont_8to1_c_477_4_alg».proof.Proof.Gen.ReferenceIdeal.Run
import proofs.«137184_g50663434224280_cont_8to1_c_477_4_alg».proof.Proof.Gen.ReferenceIdeal.Read
import proofs.«137184_g50663434224280_cont_8to1_c_477_4_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The reference's last stage is `Spec.refForm` of the four argument arrays. -/
theorem stage_eq_refForm (x0 : (⟨S10000x512, .f32⟩ : BufTy).Contents (Elt Ideal)) (x1 x2 : (⟨S512x512, .f32⟩ : BufTy).Contents (Elt Ideal))
    (x3 : (⟨S512, .f32⟩ : BufTy).Contents (Elt Ideal)) :
    val_main_v6 (F := Ideal) x0 x1 x2 x3 = Cert.Spec.refForm x0 x1 x2 x3 := by
  funext i
  have e0 : ∀ j k : Fin 512, lidx_main_v0 (lidx_main_v2 i j) k = ix2 (i 0) k := fun j k =>
    funext fun a => by match a with | ⟨0, _⟩ => rfl | ⟨1, _⟩ => rfl
  have e1 : ∀ j k : Fin 512, ridx_main_v0 (lidx_main_v2 i j) k = ix2 k j := fun j k =>
    funext fun a => by match a with | ⟨0, _⟩ => rfl | ⟨1, _⟩ => rfl
  have e2 : ∀ j : Fin 512, idx_main_v1 (ridx_main_v2 i j) = ix2 (i 1) j := fun j =>
    funext fun a => by match a with | ⟨0, _⟩ => rfl | ⟨1, _⟩ => rfl
  have e3 : idx_main_v3 (idx_main_v4 i) = ix1 (i 1) :=
    funext fun a => by match a with | ⟨0, _⟩ => rfl
  rw [val_main_v6_apply, val_main_v5_apply, val_main_v2_apply, val_main_v4_apply, val_main_v3_apply,
    val_main_call0_v0_apply, val_main_call0_cst_apply]
  simp only [val_main_v0_apply, val_main_v1_apply, e0, e1, e2, e3]
  rfl

end Cert.ReferenceIdeal.RefValue

end
-- ==== Proof.Finite.lean ====
/-
  From the precondition to real entries.

  The precondition is the conjunction of four tests, one per input array: every entry's absolute value `max x (-x)` lies
  strictly below the word `0x7F800000`, which denotes `+∞`. An extended real with `max x (-x) < +∞` is neither `+∞` nor
  `-∞`: it is a real number. Read for the three matrices (the bias needs no such fact).
-/
import proofs.«137184_g50663434224280_cont_8to1_c_477_4_alg».proof.Pre_finite_inputs
import proofs.«137184_g50663434224280_cont_8to1_c_477_4_alg».proof.Proof.SumLaw
import Idealize.ShloMosaic.Lib.ReduceAll
import Idealize.ShloMosaic.Lib.ValueIdx

noncomputable section

open Idealize.ShloMosaic

namespace Cert.Finite

open Cert.Pre_finite_inputs

instance : Subsingleton S_.Idx := ⟨fun a b => funext fun d => d.elim0⟩

/-- The word `0x7F800000` denotes `+∞`. -/
theorem top_word : Ideal.ofBits .f32 0x7F800000#32 = (⊤ : EReal) := by
  simp [Ideal.ofBits, Ideal.ieee]

/-- One entry's test: `|x| < +∞` came out true, so `x` is real. -/
theorem real_of_test (x : EReal) (h : Ideal.cmp .olt (max x (-x)) (Ideal.ofBits .f32 0x7F800000#32) = 1#1) :
    ∃ r : ℝ, x = r := by
  rw [top_word] at h
  unfold Ideal.cmp at h
  have hlt : max x (-x) < ⊤ := by
    by_contra hn
    simp [hn] at h
  exact Cert.SumLaw.real_of_abs_lt_top x hlt

/-- Under the precondition every entry of the three matrices is a real number. -/
theorem reals_of_pre [Cert.Pre_finite_inputs.Facts] (a0 : FVec Ideal S10000x512 .f32) (a1 a2 : FVec Ideal S512x512 .f32)
    (a3 : FVec Ideal S512 .f32) (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn, fn_part1] at h0
  obtain ⟨h012, _⟩ := IntOp.andi_eq_one.1 h0
  obtain ⟨h01, hR2⟩ := IntOp.andi_eq_one.1 h012
  obtain ⟨hR0, hR1⟩ := IntOp.andi_eq_one.1 h01
  refine ⟨fun i => ?_, fun i => ?_, fun i => ?_⟩
  · exact real_of_test _ (Host.reduce_andi_all _ _ _ _ _ hR0 i)
  · exact real_of_test _ (Host.reduce_andi_all _ _ _ _ _ hR1 i)
  · exact real_of_test _ (Host.reduce_andi_all _ _ _ _ _ hR2 i)

end Cert.Finite

end
-- ==== Proof.lean ====
/-
  relu (x · s · wᵀ + b), computed two ways, is one function on finite inputs.

  The kernel forms `s · wᵀ` once, keeps it, and multiplies each block of a thousand rows of `x` by it; the reference
  forms `x · s` and multiplies by `wᵀ`. Read on the extended reals, where a change of float format does nothing, entry
  `(r, l)` of the kernel's result is `max (∑ k, x r k · (∑ j, s k j · w l j) + b l) 0` (Proof/KernelValue.lean) and of the
  reference's `max (∑ j, (∑ k, x r k · s k j) · w l j + b l) 0` (Proof/RefValue.lean). The two double sums agree because
  the precondition makes every entry of `x`, `s` and `w` a real number (Proof/Finite.lean), and on real numbers
  multiplication distributes over finite sums, which may be taken in either order (Proof/SumLaw.lean, Proof/Spec.lean).
  On the extended reals themselves the step fails at the infinities, so the precondition is used, for the three
  matrices; the bias enters both sides alike.

  The three programs run and leave their arguments unchanged by their frames; the idealization rewrote nothing.
-/
import proofs.«137184_g50663434224280_cont_8to1_c_477_4_alg».proof.Defs
import proofs.«137184_g50663434224280_cont_8to1_c_477_4_alg».proof.Proof.Gen.Kernel
import proofs.«137184_g50663434224280_cont_8to1_c_477_4_alg».proof.Proof.Gen.Kernel.Skeleton
import proofs.«137184_g50663434224280_cont_8to1_c_477_4_alg».proof.Proof.Gen.Kernel.Launch
import proofs.«137184_g50663434224280_cont_8to1_c_477_4_alg».proof.Proof.Gen.Kernel.Points
import proofs.«137184_g50663434224280_cont_8to1_c_477_4_alg».proof.Proof.Gen.Kernel.Frame
import proofs.«137184_g50663434224280_cont_8to1_c_477_4_alg».proof.Proof.Gen.KernelIdeal
import proofs.«137184_g50663434224280_cont_8to1_c_477_4_alg».proof.Proof.Gen.KernelIdeal.Skeleton
import proofs.«137184_g50663434224280_cont_8to1_c_477_4_alg».proof.Proof.Gen.KernelIdeal.Launch
import proofs.«137184_g50663434224280_cont_8to1_c_477_4_alg».proof.Proof.Gen.KernelIdeal.Points
import proofs.«137184_g50663434224280_cont_8to1_c_477_4_alg».proof.Proof.Gen.KernelIdeal.Frame
import proofs.«137184_g50663434224280_cont_8to1_c_477_4_alg».proof.Proof.Gen.ReferenceIdeal
import proofs.«137184_g50663434224280_cont_8to1_c_477_4_alg».proof.Proof.Gen.Pre_finite_inputs
import proofs.«137184_g50663434224280_cont_8to1_c_477_4_alg».proof.Proof.KernelValue
import proofs.«137184_g50663434224280_cont_8to1_c_477_4_alg».proof.Proof.RefValue
import proofs.«137184_g50663434224280_cont_8to1_c_477_4_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end; the kernel's result is the arrangement with `s · wᵀ` first, the reference's the arrangement with
    `x · s` first, of arguments that agree; on the finite inputs the precondition admits these are one function. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.stage_eq_refForm,
    (hagree c).1, (hagree c).2.1, (hagree c).2.2.1, (hagree c).2.2.2]
  obtain ⟨hx, hs, hw⟩ := Cert.Finite.reals_of_pre _ _ _ _ (hpre c)
  exact (Cert.Spec.kernelForm_eq_refForm _ _ _ _ hx hs hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
